-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x768x32x32 : Shape := ⟨4, ![32, 768, 32, 32]⟩
abbrev S192x768 : Shape := ⟨2, ![192, 768]⟩
abbrev S192 : Shape := ⟨1, ![192]⟩
abbrev S768x192 : Shape := ⟨2, ![768, 192]⟩
abbrev S768 : Shape := ⟨1, ![768]⟩
abbrev S_ : Shape := ⟨0, ![]⟩

class Facts : Prop where
  bcast_S_S32x768x32x32 : S_.BroadcastsInDim S32x768x32x32 (![] : Fin 0 → Fin S32x768x32x32.rank)
  reducesTo_S32x768x32x32_S_d0_1_2_3 : S32x768x32x32.ReducesTo [0, 1, 2, 3] S_
  h_S_ : 0 < S_.numel
  bcast_S_S192x768 : S_.BroadcastsInDim S192x768 (![] : Fin 0 → Fin S192x768.rank)
  reducesTo_S192x768_S_d0_1 : S192x768.ReducesTo [0, 1] S_
  bcast_S_S192 : S_.BroadcastsInDim S192 (![] : Fin 0 → Fin S192.rank)
  reducesTo_S192_S_d0 : S192.ReducesTo [0] S_
  bcast_S_S768x192 : S_.BroadcastsInDim S768x192 (![] : Fin 0 → Fin S768x192.rank)
  reducesTo_S768x192_S_d0_1 : S768x192.ReducesTo [0, 1] S_
  bcast_S_S768 : S_.BroadcastsInDim S768 (![] : Fin 0 → Fin S768.rank)
  reducesTo_S768_S_d0 : S768.ReducesTo [0] S_

variable [Facts]

def fn_part1 {F : FTy → Type} [FloatOps F] (main_arg4 : FVec F S768 .f32) (main_v13 : IVec S_ 1) (main_v16 : IVec S768x192 1) : IVec S_ 1 :=
  let main_c_5 : IVec S_ 1 := constantI S_ 1 1#1
  let main_v17 : IVec S_ 1 := (fun x v => Host.reduce IntOp.andi x v reducesTo_S768x192_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  main_v23

def fn {F : FTy → Type} [FloatOps F] (main_arg0 : FVec F S32x768x32x32 .f32) (main_arg1 : FVec F S192x768 .f32) (main_arg2 : FVec F S192 .f32) (main_arg3 : FVec F S768x192 .f32) (main_arg4 : FVec F S768 .f32) : IVec S_ 1 :=
  let main_v0 : FVec F S32x768x32x32 .f32 := Host.absf main_arg0
  let main_cst : FVec F S_ .f32 := constant S_ .f32 0x7F800000#32
  let main_v1 : FVec F S32x768x32x32 .f32 := broadcastInDim S32x768x32x32 ![] bcast_S_S32x768x32x32 main_cst
  let main_v2 : IVec S32x768x32x32 1 := cmpf .olt main_v0 main_v1
  let main_c : IVec S_ 1 := constantI S_ 1 1#1
  let main_v3 : IVec S_ 1 := (fun x v => Host.reduce IntOp.andi x v reducesTo_S32x768x32x32_S_d0_1_2_3 h_S_) main_v2 main_c
  let main_v4 : FVec F S192x768 .f32 := Host.absf main_arg1
  let main_cst_0 : FVec F S_ .f32 := constant S_ .f32 0x7F800000#32
  let main_v5 : FVec F S192x768 .f32 := broadcastInDim S192x768 ![] bcast_S_S192x768 main_cst_0
  let main_v6 : IVec S192x768 1 := cmpf .olt main_v4 main_v5
  let main_c_1 : IVec S_ 1 := constantI S_ 1 1#1
  let main_v7 : IVec S_ 1 := (fun x v => Host.reduce IntOp.andi x v reducesTo_S192x768_S_d0_1 h_S_) main_v6 main_c_1
  let main_v8 : IVec S_ 1 := andi main_v3 main_v7
  let main_v9 : FVec F S192 .f32 := Host.absf main_arg2
  let main_cst_2 : FVec F S_ .f32 := constant S_ .f32 0x7F800000#32
  let main_v10 : FVec F S192 .f32 := broadcastInDim S192 ![] bcast_S_S192 main_cst_2
  let main_v11 : IVec S192 1 := cmpf .olt main_v9 main_v10
  let main_c_3 : IVec S_ 1 := constantI S_ 1 1#1
  let main_v12 : IVec S_ 1 := (fun x v => Host.reduce IntOp.andi x v reducesTo_S192_S_d0 h_S_) main_v11 main_c_3
  let main_v13 : IVec S_ 1 := andi main_v8 main_v12
  let main_v14 : FVec F S768x192 .f32 := Host.absf main_arg3
  let main_cst_4 : FVec F S_ .f32 := constant S_ .f32 0x7F800000#32
  let main_v15 : FVec F S768x192 .f32 := broadcastInDim S768x192 ![] bcast_S_S768x192 main_cst_4
  let main_v16 : IVec S768x192 1 := cmpf .olt main_v14 main_v15
  fn_part1 (F := F) main_arg4 main_v13 main_v16
-- ==== Kernel.lean ====
abbrev S32x768x32x32 : Shape := ⟨4, ![32, 768, 32, 32]⟩
abbrev S192x768 : Shape := ⟨2, ![192, 768]⟩
abbrev S192 : Shape := ⟨1, ![192]⟩
abbrev S768x192 : Shape := ⟨2, ![768, 192]⟩
abbrev S768 : Shape := ⟨1, ![768]⟩
abbrev S32x768x1024 : Shape := ⟨3, ![32, 768, 1024]⟩
abbrev S192x1 : Shape := ⟨2, ![192, 1]⟩
abbrev S768x1 : Shape := ⟨2, ![768, 1]⟩
abbrev S1x768x1024 : Shape := ⟨3, ![1, 768, 1024]⟩
abbrev S768x1024 : Shape := ⟨2, ![768, 1024]⟩

abbrev nBuf : Space → Nat
  | .hbm => 10
  | .vmem => 8
  | .smem => 0
  | _ => 0

abbrev bufTy : (tb : Table) → Fin (tcTables nBuf tb) → BufTy
  | .hbm, ⟨0, _⟩ => ⟨S32x768x32x32, .f32⟩
  | .hbm, ⟨1, _⟩ => ⟨S192x768, .f32⟩
  | .hbm, ⟨2, _⟩ => ⟨S192, .f32⟩
  | .hbm, ⟨3, _⟩ => ⟨S768x192, .f32⟩
  | .hbm, ⟨4, _⟩ => ⟨S768, .f32⟩
  | .hbm, ⟨5, _⟩ => ⟨S32x768x1024, .f32⟩
  | .hbm, ⟨6, _⟩ => ⟨S192x1, .f32⟩
  | .hbm, ⟨7, _⟩ => ⟨S768x1, .f32⟩
  | .hbm, ⟨8, _⟩ => ⟨S32x768x1024, .f32⟩
  | .hbm, ⟨9, _⟩ => ⟨S32x768x32x32, .f32⟩
  | .local _ .vmem, ⟨0, _⟩ => ⟨S1x768x1024, .f32⟩
  | .local _ .vmem, ⟨1, _⟩ => ⟨S1x768x1024, .f32⟩
  | .local _ .vmem, ⟨2, _⟩ => ⟨S192x768, .f32⟩
  | .local _ .vmem, ⟨3, _⟩ => ⟨S192x1, .f32⟩
  | .local _ .vmem, ⟨4, _⟩ => ⟨S768x192, .f32⟩
  | .local _ .vmem, ⟨5, _⟩ => ⟨S768x1, .f32⟩
  | .local _ .vmem, ⟨6, _⟩ => ⟨S1x768x1024, .f32⟩
  | .local _ .vmem, ⟨7, _⟩ => ⟨S1x768x1024, .f32⟩
  | _, _ => ⟨S32x768x32x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x768x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S192x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S192x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S768x192 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S768x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x768x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

class Facts₀ : Prop where
  shapeCasts_S32x768x32x32_S32x768x1024 : S32x768x32x32.ShapeCasts S32x768x1024
  shapeCasts_S192_S192x1 : S192.ShapeCasts S192x1
  shapeCasts_S768_S768x1 : S768.ShapeCasts S768x1
  inb_S1x768x1024_S1x768x1024_0_0_0 : ∀ a, (![0, 0, 0] : Fin 3 → Nat) a + S1x768x1024.size a ≤ S1x768x1024.size a
  h_S1x768x1024 : 0 < S1x768x1024.numel
  shapeCasts_S1x768x1024_S768x1024 : S1x768x1024.ShapeCasts S768x1024
  reduces_S768x1024_S768 : S768x1024.Reduces [1] S768
  inb_S192x768_S192x768_0_0 : ∀ a, (![0, 0] : Fin 2 → Nat) a + S192x768.size a ≤ S192x768.size a
  h_S192x768 : 0 < S192x768.numel
  bitsLt_bf16_f32 : FTy.bits .bf16 < FTy.bits .f32
  inb_S192x1_S192x1_0_0 : ∀ a, (![0, 0] : Fin 2 → Nat) a + S192x1.size a ≤ S192x1.size a
  h_S192x1 : 0 < S192x1.numel
  shapeCasts_S192x1_S192x1 : S192x1.ShapeCasts S192x1
  inb_S768x192_S768x192_0_0 : ∀ a, (![0, 0] : Fin 2 → Nat) a + S768x192.size a ≤ S768x192.size a
  h_S768x192 : 0 < S768x192.numel
  inb_S768x1_S768x1_0_0 : ∀ a, (![0, 0] : Fin 2 → Nat) a + S768x1.size a ≤ S768x1.size a
  h_S768x1 : 0 < S768x1.numel
  shapeCasts_S768x1_S768x1 : S768x1.ShapeCasts S768x1
  broadcasts_S768x1_S768x1024 : S768x1.Broadcasts S768x1024
  shapeCasts_S768x1024_S1x768x1024 : S768x1024.ShapeCasts S1x768x1024
  shapeCasts_S32x768x1024_S32x768x32x32 : S32x768x1024.ShapeCasts S32x768x32x32
  dot_S192x768_S768x1_S192x1_1_0_0_1_n_n_wf : DotDims.WF S192x768 S768x1 S192x1 [1] [0] [0] [1] [] []
  dot_S768x192_S192x1_S768x1_1_0_0_1_n_n_wf : DotDims.WF S768x192 S192x1 S768x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x768x1024.size a ≤ S32x768x1024.size a
  hwx0_0 : ∀ i : grid0.Coords, EltTy.bits .f32 = 32 ∨ (Rect.block (s := S32x768x1024) S1x768x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S192x768.size a ≤ S192x768.size a
  hwx0_1 : ∀ i : grid0.Coords, EltTy.bits .f32 = 32 ∨ (Rect.block (s := S192x768) S192x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S192x1.size a ≤ S192x1.size a
  hwx0_2 : ∀ i : grid0.Coords, EltTy.bits .f32 = 32 ∨ (Rect.block (s := S192x1) S192x1.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S768x192.size a ≤ S768x192.size a
  hwx0_3 : ∀ i : grid0.Coords, EltTy.bits .f32 = 32 ∨ (Rect.block (s := S768x192) S768x192.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S768x1.size a ≤ S768x1.size a
  hwx0_4 : ∀ i : grid0.Coords, EltTy.bits .f32 = 32 ∨ (Rect.block (s := S768x1) S768x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x768x1024.size a ≤ S32x768x1024.size a
  hwx0_5 : ∀ i : grid0.Coords, EltTy.bits .f32 = 32 ∨ (Rect.block (s := S32x768x1024) S1x768x1024.size (cc0_transform_5 i) (hinb0_5 i)).WholeWords (EltTy.packing .f32)

variable [Facts₀]

def dot_S192x768_S768x1_S192x1_1_0_0_1_n_n : DotDims S192x768 S768x1 S192x1 where
  lhsContracting := [1]
  rhsContracting := [0]
  lhsNonContracting := [0]
  rhsNonContracting := [1]
  lhsBatch := []
  rhsBatch := []
  wf := dot_S192x768_S768x1_S192x1_1_0_0_1_n_n_wf
def dot_S768x192_S192x1_S768x1_1_0_0_1_n_n : DotDims S768x192 S192x1 S768x1 where
  lhsContracting := [1]
  rhsContracting := [0]
  lhsNonContracting := [0]
  rhsNonContracting := [1]
  lhsBatch := []
  rhsBatch := []
  wf := dot_S768x192_S192x1_S768x1_1_0_0_1_n_n_wf

abbrev win0_0 : Pipeline.Window sig grid0 :=
  Pipeline.Window.ofSpec (Memref.whole main_v0) S1x768x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S192x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S192x1.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg3) S768x192.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v2) S768x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v3) S1x768x1024.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

class Facts : Prop extends Facts₀ where

variable [Facts]
-- ==== ReferenceIdeal.lean ====
abbrev S32x768x32x32 : Shape := ⟨4, ![32, 768, 32, 32]⟩
abbrev S192x768 : Shape := ⟨2, ![192, 768]⟩
abbrev S192 : Shape := ⟨1, ![192]⟩
abbrev S768x192 : Shape := ⟨2, ![768, 192]⟩
abbrev S768 : Shape := ⟨1, ![768]⟩
abbrev S_ : Shape := ⟨0, ![]⟩
abbrev S32x768 : Shape := ⟨2, ![32, 768]⟩
abbrev S32x192 : Shape := ⟨2, ![32, 192]⟩
abbrev S1x192 : Shape := ⟨2, ![1, 192]⟩
abbrev S1x768 : Shape := ⟨2, ![1, 768]⟩
abbrev S32x768x1x1 : Shape := ⟨4, ![32, 768, 1, 1]⟩

abbrev nBuf : Space → Nat
  | .hbm => 40
  | .vmem => 0
  | .smem => 0
  | _ => 0

abbrev bufTy : (tb : Table) → Fin (tcTables nBuf tb) → BufTy
  | .hbm, ⟨0, _⟩ => ⟨S32x768x32x32, .f32⟩
  | .hbm, ⟨1, _⟩ => ⟨S192x768, .f32⟩
  | .hbm, ⟨2, _⟩ => ⟨S192, .f32⟩
  | .hbm, ⟨3, _⟩ => ⟨S768x192, .f32⟩
  | .hbm, ⟨4, _⟩ => ⟨S768, .f32⟩
  | .hbm, ⟨5, _⟩ => ⟨S_, .f32⟩
  | .hbm, ⟨6, _⟩ => ⟨S32x768, .f32⟩
  | .hbm, ⟨7, _⟩ => ⟨S_, .f32⟩
  | .hbm, ⟨8, _⟩ => ⟨S32x768, .f32⟩
  | .hbm, ⟨9, _⟩ => ⟨S32x768, .f32⟩
  | .hbm, ⟨10, _⟩ => ⟨S768x192, .f32⟩
  | .hbm, ⟨11, _⟩ => ⟨S32x192, .f32⟩
  | .hbm, ⟨12, _⟩ => ⟨S1x192, .f32⟩
  | .hbm, ⟨13, _⟩ => ⟨S32x192, .f32⟩
  | .hbm, ⟨14, _⟩ => ⟨S32x192, .f32⟩
  | .hbm, ⟨15, _⟩ => ⟨S32x192, .f32⟩
  | .hbm, ⟨16, _⟩ => ⟨S32x192, .f32⟩
  | .hbm, ⟨17, _⟩ => ⟨S_, .f32⟩
  | .hbm, ⟨18, _⟩ => ⟨S32x192, .f32⟩
  | .hbm, ⟨19, _⟩ => ⟨S32x192, .f32⟩
  | .hbm, ⟨20, _⟩ => ⟨S_, .f32⟩
  | .hbm, ⟨21, _⟩ => ⟨S32x192, .f32⟩
  | .hbm, ⟨22, _⟩ => ⟨S32x192, .f32⟩
  | .hbm, ⟨23, _⟩ => ⟨S32x192, .f32⟩
  | .hbm, ⟨24, _⟩ => ⟨S192x768, .f32⟩
  | .hbm, ⟨25, _⟩ => ⟨S32x768, .f32⟩
  | .hbm, ⟨26, _⟩ => ⟨S1x768, .f32⟩
  | .hbm, ⟨27, _⟩ => ⟨S32x768, .f32⟩
  | .hbm, ⟨28, _⟩ => ⟨S32x768, .f32⟩
  | .hbm, ⟨29, _⟩ => ⟨S32x768, .f32⟩
  | .hbm, ⟨30, _⟩ => ⟨S32x768, .f32⟩
  | .hbm, ⟨31, _⟩ => ⟨S_, .f32⟩
  | .hbm, ⟨32, _⟩ => ⟨S32x768, .f32⟩
  | .hbm, ⟨33, _⟩ => ⟨S32x768, .f32⟩
  | .hbm, ⟨34, _⟩ => ⟨S_, .f32⟩
  | .hbm, ⟨35, _⟩ => ⟨S32x768, .f32⟩
  | .hbm, ⟨36, _⟩ => ⟨S32x768, .f32⟩
  | .hbm, ⟨37, _⟩ => ⟨S32x768x1x1, .f32⟩
  | .hbm, ⟨38, _⟩ => ⟨S32x768x32x32, .f32⟩
  | .hbm, ⟨39, _⟩ => ⟨S32x768x32x32, .f32⟩
  | _, _ => ⟨S32x768x32x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v0 : Ref sig .tc := ⟨.hbm, 6, rfl⟩
abbrev main_cst_0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_cst_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_cst_3 : Ref sig .tc := ⟨.hbm, 31, rfl⟩
abbrev main_v22 : Ref sig .tc := ⟨.hbm, 32, rfl⟩
abbrev main_v23 : Ref sig .tc := ⟨.hbm, 33, rfl⟩
abbrev main_cst_4 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩

abbrev nD : Nat := 1
abbrev τ : Topo := Topo.v7x

variable {F : FTy → Type} [FloatOps F]

class Facts₀ : Prop where
  reducesTo_S32x768x32x32_S32x768_d2_3 : S32x768x32x32.ReducesTo [2, 3] S32x768
  h_S_ : 0 < S_.numel
  bcast_S_S32x768 : S_.BroadcastsInDim S32x768 (![] : Fin 0 → Fin S32x768.rank)
  transposes_S192x768_S768x192_1_0 : S192x768.Transposes [1, 0] S768x192
  bcast_S192_S1x192_1 : S192.BroadcastsInDim S1x192 (![1] : Fin 1 → Fin S1x192.rank)
  bcast_S1x192_S32x192_0_1 : S1x192.BroadcastsInDim S32x192 (![0, 1] : Fin 2 → Fin S32x192.rank)
  bcast_S_S32x192 : S_.BroadcastsInDim S32x192 (![] : Fin 0 → Fin S32x192.rank)
  transposes_S768x192_S192x768_1_0 : S768x192.Transposes [1, 0] S192x768
  bcast_S768_S1x768_1 : S768.BroadcastsInDim S1x768 (![1] : Fin 1 → Fin S1x768.rank)
  bcast_S1x768_S32x768_0_1 : S1x768.BroadcastsInDim S32x768 (![0, 1] : Fin 2 → Fin S32x768.rank)
  bcast_S32x768_S32x768x1x1_0_1 : S32x768.BroadcastsInDim S32x768x1x1 (![0, 1] : Fin 2 → Fin S32x768x1x1.rank)
  bcast_S32x768x1x1_S32x768x32x32_0_1_2_3 : S32x768x1x1.BroadcastsInDim S32x768x32x32 (![0, 1, 2, 3] : Fin 4 → Fin S32x768x32x32.rank)
  dot_S32x768_S768x192_S32x192_1_0_0_1_n_n_wf : DotDims.WF S32x768 S768x192 S32x192 [1] [0] [0] [1] [] []
  dot_S32x192_S192x768_S32x768_1_0_0_1_n_n_wf : DotDims.WF S32x192 S192x768 S32x768 [1] [0] [0] [1] [] []

variable [Facts₀]

def dot_S32x768_S768x192_S32x192_1_0_0_1_n_n : DotDims S32x768 S768x192 S32x192 where
  lhsContracting := [1]
  rhsContracting := [0]
  lhsNonContracting := [0]
  rhsNonContracting := [1]
  lhsBatch := []
  rhsBatch := []
  wf := dot_S32x768_S768x192_S32x192_1_0_0_1_n_n_wf
def dot_S32x192_S192x768_S32x768_1_0_0_1_n_n : DotDims S32x192 S192x768 S32x768 where
  lhsContracting := [1]
  rhsContracting := [0]
  lhsNonContracting := [0]
  rhsNonContracting := [1]
  lhsBatch := []
  rhsBatch := []
  wf := dot_S32x192_S192x768_S32x768_1_0_0_1_n_n_wf

class Facts : Prop extends Facts₀ where

variable [Facts]
-- ==== Proof.SeSpec.lean ====
/-
  Squeeze-and-excitation over a feature map `x : [32, 768, 32, 32]`, as one function of the five argument arrays.

  For a batch entry `b` and a channel `c` the POOLED value is the sum of the 32 × 32 spatial entries of `x` at `(b, c)`;
  the squeezed value is that sum times `2⁻¹⁰` (the mean over 1024 entries). The excitation is a two-layer perceptron over
  the channel axis: `h j = (∑ k, w1 j k · mean k) + b1 j`, passed through `z ↦ z · σ(z)`, then
  `g c = σ((∑ j, w2 c j · swish (h j)) + b2 c)`, with `σ z = 1 / (1 + e⁻ᶻ)` the logistic function on the extended
  reals. The result scales every spatial entry of channel `c` of batch entry `b` by that gate.

  Three facts about the extended reals join the two programs to this function, and none of them needs a finite
  input: a quotient by `1024` is the product with `2⁻¹⁰`; the quotient `1 / (1 + e⁻ᶻ)` written out with the unit
  constant `1.0` IS the logistic function; and a sum over a lane axis of length 1024, read as 32 rows of 32, is the
  sum over the pairs (row, column), since addition of extended reals is commutative and associative.
-/
import Idealize.ShloMosaic.PureOps.Ideal
import Idealize.ShloMosaic.PureOps.Ideal.Laws
import Idealize.ShloMosaic.Lib.ValueIdx

noncomputable section

namespace Cert.SeSpec

open Idealize.ShloMosaic Idealize.ShloMosaic.ValueIdx

/-! ## The three float constants the programs spell -/

/-- The pattern of `1.0` denotes `1`. -/
theorem ofBits_one : Ideal.ofBits .f32 0x3F800000#32 = 1 := by
  simp [Ideal.ofBits, Ideal.ieee, -EReal.coe_mul]; norm_num

/-- The pattern of `1024.0` denotes the real `1024`. -/
theorem ofBits_1024 : Ideal.ofBits .f32 0x44800000#32 = ((1024 : ℝ) : EReal) := by
  simp [Ideal.ofBits, Ideal.ieee, -EReal.coe_mul]; norm_num

/-- The pattern of `9.765625e-4` denotes exactly `1 / 1024 = 2⁻¹⁰`: a power of two, so nothing was rounded. -/
theorem ofBits_inv1024 : Ideal.ofBits .f32 0x3A800000#32 = ((1 / 1024 : ℝ) : EReal) := by
  simp [Ideal.ofBits, Ideal.ieee, -EReal.coe_mul]; norm_num

/-- Dividing by `1024` is multiplying by `2⁻¹⁰`, on every extended real (the infinities included). -/
theorem div_1024 (s : EReal) :
    Ideal.div s (Ideal.ofBits .f32 0x44800000#32) = s * Ideal.ofBits .f32 0x3A800000#32 := by
  rw [ofBits_1024, ofBits_inv1024]
  exact Ideal.div_coe (by norm_num) s

/-- `1 / (1 + e⁻ᶻ)` spelled with the unit constant is the logistic function. -/
theorem one_div_one_add_exp_neg (z : EReal) :
    Ideal.div (Ideal.ofBits .f32 0x3F800000#32) (Ideal.ofBits .f32 0x3F800000#32 + Ideal.exp (-z)) = Ideal.logistic z := by
  rw [ofBits_one]; rfl

/-! ## A lane axis of 1024 as 32 rows of 32 -/

/-- Lane `l` of a flattened 32 × 32 tile is row `l / 32`, column `l % 32`; the pair (row, column) sits at lane
    `32 · row + column`. -/
def laneEquiv : Fin 32 × Fin 32 ≃ Fin 1024 where
  toFun pq := ⟨pq.1.val * 32 + pq.2.val, by have := pq.1.isLt; have := pq.2.isLt; omega⟩
  invFun l := (⟨l.val / 32, by have := l.isLt; omega⟩, ⟨l.val % 32, by omega⟩)
  left_inv pq := by
    have h1 := pq.1.isLt; have h2 := pq.2.isLt
    refine Prod.ext (Fin.ext ?_) (Fin.ext ?_)
    · show (pq.1.val * 32 + pq.2.val) / 32 = pq.1.val; omega
    · show (pq.1.val * 32 + pq.2.val) % 32 = pq.2.val; omega
  right_inv l := by
    refine Fin.ext ?_
    show l.val / 32 * 32 + l.val % 32 = l.val; omega

/-- A sum over the 1024 lanes is the sum over the 32 × 32 (row, column) pairs. -/
theorem sum_lanes (f : Fin 1024 → EReal) :
    ∑ l : Fin 1024, f l = ∑ pq : Fin 32 × Fin 32, f ⟨pq.1.val * 32 + pq.2.val, by have := pq.1.isLt; have := pq.2.isLt; omega⟩ :=
  (Equiv.sum_comp laneEquiv f).symm

/-! ## The function both programs compute -/

/-- `z · σ(z)`. -/
def swish (z : EReal) : EReal := z * Ideal.logistic z

/-- The gate of channel `c` from the pooled sums of one batch entry, the two weight matrices and the two biases. -/
def gateOf (pool : Fin 768 → EReal) (w1 : Fin 192 → Fin 768 → EReal) (b1 : Fin 192 → EReal)
    (w2 : Fin 768 → Fin 192 → EReal) (b2 : Fin 768 → EReal) (c : Fin 768) : EReal :=
  Ideal.logistic ((∑ j : Fin 192, w2 c j *
      swish ((∑ k : Fin 768, w1 j k * (pool k * Ideal.ofBits .f32 0x3A800000#32)) + b1 j)) + b2 c)

/-- The pooled sum of batch entry `b`, channel `c`: over the 32 × 32 spatial positions. -/
def pooled (x : (⟨4, ![32, 768, 32, 32]⟩ : Shape).Idx → EReal) (b : Fin 32) (c : Fin 768) : EReal :=
  ∑ pq : Fin 32 × Fin 32, x (ix4 b c pq.1 pq.2)

/-- The scaled feature map: each entry of `x` times the gate of its batch entry and channel. -/
def scaled (x : (⟨4, ![32, 768, 32, 32]⟩ : Shape).Idx → EReal) (w1 : (⟨2, ![192, 768]⟩ : Shape).Idx → EReal)
    (b1 : (⟨1, ![192]⟩ : Shape).Idx → EReal) (w2 : (⟨2, ![768, 192]⟩ : Shape).Idx → EReal)
    (b2 : (⟨1, ![768]⟩ : Shape).Idx → EReal) : (⟨4, ![32, 768, 32, 32]⟩ : Shape).Idx → EReal :=
  fun i => x i * gateOf (pooled x (i 0)) (fun j k => w1 (ix2 j k)) (fun j => b1 (ix1 j))
    (fun c j => w2 (ix2 c j)) (fun c => b2 (ix1 c)) (i 1)

end Cert.SeSpec

end
-- ==== Proof.SeRef.lean ====
/-
  The reference program, stage by stage, is the scaled feature map of the specification.

  Its first stage sums `x` over the two spatial axes: the indices that drop to `(b, c)` are exactly `(b, c, p, q)`, so the
  sum over them is the sum over the pairs `(p, q)`. The quotient by `1024` is the product with `2⁻¹⁰`. Each of the two
  matrix products contracts the channel axis against a TRANSPOSED weight matrix with the activations on the left,
  `∑ k, s b k · w1ᵀ k j`; commuting each product gives the specification's `∑ k, w1 j k · s b k`. Each sigmoid is
  written out as `1 / (1 + e⁻ᶻ)`, which is the logistic function. The biases are broadcast along the batch axis and
  the gate along the two spatial axes.
-/
import proofs.«125792_j79139067396494_1_alg».proof.Proof.Gen.ReferenceIdeal.Read
import proofs.«125792_j79139067396494_1_alg».proof.Proof.SeSpec

noncomputable section

namespace Cert.SeRef

open Cert.ReferenceIdeal Cert.ReferenceIdeal.Gen Cert.ReferenceIdeal.Read Idealize.ShloMosaic Idealize.ShloMosaic.ValueIdx Cert.SeSpec

variable (x0 : (⟨S32x768x32x32, .f32⟩ : BufTy).Contents (Elt Ideal)) (x1 : (⟨S192x768, .f32⟩ : BufTy).Contents (Elt Ideal))
  (x2 : (⟨S192, .f32⟩ : BufTy).Contents (Elt Ideal)) (x3 : (⟨S768x192, .f32⟩ : BufTy).Contents (Elt Ideal))
  (x4 : (⟨S768, .f32⟩ : BufTy).Contents (Elt Ideal))

/-- The spatial sum at `(b, c)`: the source indices that drop to `(b, c)` are the `(b, c, p, q)`. -/
theorem pool_eq (b : Fin 32) (c : Fin 768) : val_main_v0 (F := Ideal) x0 (ix2 b c) = pooled x0 b c := by
  unfold val_main_v0 Host.reduceAdd
  rw [Ideal.hostReduceAdd_def]
  unfold Ideal.hostReduceAdd
  show Ideal.ofBits .f32 0x00000000#32 + _ = _
  rw [Ideal.ofBits_zero_f32, zero_add]
  unfold pooled
  have hdrop : ∀ i : S32x768x32x32.Idx,
      reducesTo_S32x768x32x32_S32x768_d2_3.drop i = ix2 b c ↔ (i 0 = b ∧ i 1 = c) := by
    intro i
    have hv0 : ((reducesTo_S32x768x32x32_S32x768_d2_3.drop i 0 : Fin 32) : Nat) = (i 0 : Fin 32) :=
      Shape.ReducesTo.drop_apply_val reducesTo_S32x768x32x32_S32x768_d2_3 i 0
    have hv1 : ((reducesTo_S32x768x32x32_S32x768_d2_3.drop i 1 : Fin 768) : Nat) = (i 1 : Fin 768) :=
      Shape.ReducesTo.drop_apply_val reducesTo_S32x768x32x32_S32x768_d2_3 i 1
    constructor
    · intro e
      rw [e] at hv0 hv1
      exact ⟨Fin.ext hv0.symm, Fin.ext hv1.symm⟩
    · rintro ⟨e0, e1⟩
      funext a
      match a with
      | ⟨0, _⟩ => exact Fin.ext (hv0.trans (congrArg Fin.val e0))
      | ⟨1, _⟩ => exact Fin.ext (hv1.trans (congrArg Fin.val e1))
  have hback : ∀ i : S32x768x32x32.Idx, i 0 = b → i 1 = c → ix4 b c (i 2) (i 3) = i := fun i h0 h1 => by
    funext a
    match a with
    | ⟨0, _⟩ => exact h0.symm
    | ⟨1, _⟩ => exact h1.symm
    | ⟨2, _⟩ => rfl
    | ⟨3, _⟩ => rfl
  refine Finset.sum_bij' (fun i _ => ((i 2, i 3) : Fin 32 × Fin 32)) (fun pq _ => ix4 b c pq.1 pq.2)
    (fun _ _ => Finset.mem_univ _)
    (fun pq _ => Finset.mem_filter.2 ⟨Finset.mem_univ _, (hdrop _).2 ⟨rfl, rfl⟩⟩)
    (fun i hi => hback i ((hdrop i).1 (Finset.mem_filter.1 hi).2).1 ((hdrop i).1 (Finset.mem_filter.1 hi).2).2)
    (fun _ _ => rfl) ?_
  intro i hi
  exact (congrArg x0 (hback i ((hdrop i).1 (Finset.mem_filter.1 hi).2).1 ((hdrop i).1 (Finset.mem_filter.1 hi).2).2)).symm

/-- The mean at `(b, c)`: the pooled sum times `2⁻¹⁰`. -/
theorem squeeze_eq (b : Fin 32) (c : Fin 768) :
    val_main_v2 (F := Ideal) x0 (ix2 b c) = pooled x0 b c * Ideal.ofBits .f32 0x3A800000#32 := by
  rw [val_main_v2_apply, val_main_v1_apply, val_main_cst_0_apply, pool_eq]
  exact div_1024 _

/-- The first layer at `(b, j)`. -/
theorem hidden_eq (b : Fin 32) (j : Fin 192) :
    val_main_v7 (F := Ideal) x0 x1 x2 (ix2 b j)
      = (∑ k : Fin 768, x1 (ix2 j k) * (pooled x0 b k * Ideal.ofBits .f32 0x3A800000#32)) + x2 (ix1 j) := by
  rw [val_main_v7_apply, val_main_v4_apply, val_main_v6_apply, val_main_v5_apply]
  have hs : ∀ k : Fin 768, val_main_v2 (F := Ideal) x0 (lidx_main_v4 (ix2 b j) k) * val_main_v3 (F := Ideal) x1 (ridx_main_v4 (ix2 b j) k)
      = x1 (ix2 j k) * (pooled x0 b k * Ideal.ofBits .f32 0x3A800000#32) := fun k => by
    have e1 : lidx_main_v4 (ix2 b j) k = ix2 b k := funext fun a => by
      match a with
      | ⟨0, _⟩ => rfl
      | ⟨1, _⟩ => rfl
    have e2 : idx_main_v3 (ridx_main_v4 (ix2 b j) k) = ix2 j k := funext fun a => by
      match a with
      | ⟨0, _⟩ => rfl
      | ⟨1, _⟩ => rfl
    rw [val_main_v3_apply, e1, e2, squeeze_eq, mul_comm]
  have hb : idx_main_v5 (idx_main_v6 (ix2 b j)) = ix1 j := funext fun a => by
    match a with
    | ⟨0, _⟩ => rfl
  rw [Finset.sum_congr rfl (fun k _ => hs k), hb]
  rfl

/-- The first layer's activation at `(b, j)`: `z · σ(z)`. -/
theorem swish_eq (b : Fin 32) (j : Fin 192) :
    val_main_v14 (F := Ideal) x0 x1 x2 (ix2 b j)
      = swish ((∑ k : Fin 768, x1 (ix2 j k) * (pooled x0 b k * Ideal.ofBits .f32 0x3A800000#32)) + x2 (ix1 j)) := by
  rw [val_main_v14_apply, val_main_v13_apply, val_main_v12_apply, val_main_cst_2_apply, val_main_v11_apply,
    val_main_v10_apply, val_main_cst_1_apply, val_main_v9_apply, val_main_v8_apply, hidden_eq]
  unfold swish
  exact congrArg (_ * ·) (one_div_one_add_exp_neg _)

/-- The gate at `(b, c)`. -/
theorem gate_eq (b : Fin 32) (c : Fin 768) :
    val_main_v25 (F := Ideal) x0 x1 x2 x3 x4 (ix2 b c)
      = gateOf (pooled x0 b) (fun j k => x1 (ix2 j k)) (fun j => x2 (ix1 j)) (fun c j => x3 (ix2 c j)) (fun c => x4 (ix1 c)) c := by
  rw [val_main_v25_apply, val_main_v24_apply, val_main_cst_4_apply, val_main_v23_apply, val_main_v22_apply,
    val_main_cst_3_apply, val_main_v21_apply, val_main_v20_apply, val_main_v19_apply, val_main_v16_apply,
    val_main_v18_apply, val_main_v17_apply]
  have hs : ∀ j : Fin 192, val_main_v14 (F := Ideal) x0 x1 x2 (lidx_main_v16 (ix2 b c) j) * val_main_v15 (F := Ideal) x3 (ridx_main_v16 (ix2 b c) j)
      = x3 (ix2 c j) * swish ((∑ k : Fin 768, x1 (ix2 j k) * (pooled x0 b k * Ideal.ofBits .f32 0x3A800000#32)) + x2 (ix1 j)) := fun j => by
    have e1 : lidx_main_v16 (ix2 b c) j = ix2 b j := funext fun a => by
      match a with
      | ⟨0, _⟩ => rfl
      | ⟨1, _⟩ => rfl
    have e2 : idx_main_v15 (ridx_main_v16 (ix2 b c) j) = ix2 c j := funext fun a => by
      match a with
      | ⟨0, _⟩ => rfl
      | ⟨1, _⟩ => rfl
    rw [val_main_v15_apply, e1, e2, swish_eq, mul_comm]
  have hb : idx_main_v17 (idx_main_v18 (ix2 b c)) = ix1 c := funext fun a => by
    match a with
    | ⟨0, _⟩ => rfl
  rw [Finset.sum_congr rfl (fun j _ => hs j), hb]
  unfold gateOf
  exact one_div_one_add_exp_neg _

/-- The reference's result is the scaled feature map. -/
theorem result_eq : val_main_v28 (F := Ideal) x0 x1 x2 x3 x4 = scaled x0 x1 x2 x3 x4 := by
  funext i
  obtain ⟨b, c, p, q, rfl⟩ : ∃ (b : Fin 32) (c : Fin 768) (p q : Fin 32), i = ix4 b c p q := ⟨i 0, i 1, i 2, i 3, eq_ix4 i⟩
  rw [val_main_v28_apply, val_main_v27_apply, val_main_v26_apply]
  have e : idx_main_v26 (idx_main_v27 (ix4 b c p q)) = ix2 b c := funext fun a => by
    match a with
    | ⟨0, _⟩ => rfl
    | ⟨1, _⟩ => rfl
  rw [e, gate_eq]
  rfl

end Cert.SeRef

end
-- ==== Proof.LibKeepdims.lean ====
/-
  Column forms of a kept unit axis, read at an index: a vector `[a]` viewed as the column `[a, 1]` reads its entry at
  the row, and a column `[a, 1]` broadcast along its unit axis to `[a, b]` reads, at `(p, c)`, the column's entry
  in row `p`. Together with the row forms (`[a]` as `[1, a]`, and `[1, b]` over `[a, b]`) these read a sum that
  keeps its reduced axis and is then broadcast against a two-dimensional tile.
-/
import Idealize.ShloMosaic.Lib.Pipeline.Value
import Idealize.ShloMosaic.Lib.ValueIdx

noncomputable section

namespace Cert.LibKeepdims

open Idealize.ShloMosaic Idealize.ShloMosaic.ValueIdx

variable {α : Type}

/-- A vector `[a]` cast to the column `[a, 1]` reads, at `(i, u)`, the vector at `i`: both have row-major position `i`,
    the unit coordinate `u` being `0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column's entry in row `p`: the row coordinate is
    kept (or is `0` already when `a = 1`), the unit axis reads its only coordinate. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibKeepdims

end
-- ==== Proof.SePay.lean ====
/-
  The kernel body's one stored value, read at an index of its `[1, 768, 1024]` tile.

  The tile is one batch entry of `x` with the 32 × 32 spatial positions flattened onto the lane axis. The body sums each
  row over its 1024 lanes and keeps the sum as a column, scales the column by `2⁻¹⁰`, multiplies the first weight matrix
  into it (a `[192, 768] × [768, 1]` product into a zero accumulator is the plain sum over the contracted axis), adds the
  first bias column and applies `z ↦ z · σ(z)`; the second layer is the same with the second weight matrix and bias and
  ends in `σ`. The resulting gate column is broadcast along the lanes and multiplied into the tile. Every change of
  float format on the way is the identity on the extended reals. So entry `(r, l)` of the stored tile is the tile's
  entry times the specification's gate of row `r`, the gate taken from the tile's row sums and the four small blocks.
-/
import proofs.«125792_j79139067396494_1_alg».proof.Proof.Gen.KernelIdeal.Skeleton
import proofs.«125792_j79139067396494_1_alg».proof.Proof.SeSpec
import proofs.«125792_j79139067396494_1_alg».proof.Proof.LibKeepdims
import Idealize.ShloMosaic.Lib.Pipeline.Value
import Idealize.ShloMosaic.Lib.ValueIdx
import Idealize.ShloMosaic.PureOps.Ideal.Laws

noncomputable section

namespace Cert.SePay

open Cert.KernelIdeal Cert.KernelIdeal.Gen Idealize.ShloMosaic Idealize.ShloMosaic.ValueIdx Cert.SeSpec Cert.LibKeepdims

/-! ## The layout operations and the lane sum, each read at an index -/

/-- The `[1, 768, 1024]` tile viewed as `[768, 1024]`: entry `(r, l)` is the tile's `(0, r, l)`. -/
theorem tile_apply (v0 : FVec Ideal S1x768x1024 .f32) (r : Fin 768) (l : Fin 1024) :
    shapeCast S768x1024 v0 shapeCasts_S1x768x1024_S768x1024 (ix2 r l) = v0 (ix3 (0 : Fin 1) r l) :=
  shapeCast_apply v0 shapeCasts_S1x768x1024_S768x1024 (ix2 r l) (ix3 (0 : Fin 1) r l) (by
    rw [Shape.rowMajor_val_three, Shape.rowMajor_val_two]
    show (0 * 768 + r.val) * 1024 + l.val = r.val * 1024 + l.val
    omega)

/-- And back: a `[768, 1024]` value stored as a `[1, 768, 1024]` tile reads `(r, l)` at `(0, r, l)`. -/
theorem untile_apply (v : FVec Ideal S768x1024 .f32) (u : Fin 1) (r : Fin 768) (l : Fin 1024) :
    shapeCast S1x768x1024 v shapeCasts_S768x1024_S1x768x1024 (ix3 u r l) = v (ix2 r l) :=
  shapeCast_apply v shapeCasts_S768x1024_S1x768x1024 (ix3 u r l) (ix2 r l) (by
    have hu : u.val = 0 := by omega
    rw [Shape.rowMajor_val_three, Shape.rowMajor_val_two]
    show r.val * 1024 + l.val = (u.val * 768 + r.val) * 1024 + l.val
    rw [hu]; omega)

/-- The sum over the lane axis at row `k`: the sum of that row's 1024 entries. -/
theorem laneSum_apply (v1 : FVec Ideal S768x1024 .f32) (hacc : (0x00000000#32 : BitVec 32) = 0x00000000#32) (k : Fin 768) :
    multiReduction .add [1] S768 v1 0x00000000#32 reduces_S768x1024_S768 (.inl rfl) hacc (ix1 k)
      = ∑ l : Fin 1024, v1 (ix2 k l) := by
  refine (Ideal.multiReduction_add_single v1 0x00000000#32 reduces_S768x1024_S768 (.inl rfl) hacc (ix1 k)).trans ?_
  refine Finset.sum_congr rfl fun l _ => congrArg v1 (funext fun a => ?_)
  match a with
  | ⟨0, _⟩ => rfl
  | ⟨1, _⟩ => rfl

/-! ## The two matrix products into a zero accumulator, each a plain sum over the contracted axis -/

theorem lhs1_0 (i : S192x1.Idx) (q : dot_S192x768_S768x1_S192x1_1_0_0_1_n_n.contr.Idx) :
    (dot_S192x768_S768x1_S192x1_1_0_0_1_n_n.lhsIdx i q 0).val = (i 0).val := by
  unfold DotDims.lhsIdx
  rw [dif_neg (show ¬(0 : Fin S192x768.rank) ∈ dot_S192x768_S768x1_S192x1_1_0_0_1_n_n.lhsBatch by decide), dif_pos (show (0 : Fin S192x768.rank) ∈ dot_S192x768_S768x1_S192x1_1_0_0_1_n_n.lhsNonContracting by decide)]
  rfl
theorem lhs1_1 (i : S192x1.Idx) (q : dot_S192x768_S768x1_S192x1_1_0_0_1_n_n.contr.Idx) :
    (dot_S192x768_S768x1_S192x1_1_0_0_1_n_n.lhsIdx i q 1).val = (q ⟨0, by decide⟩).val :=
  dot_S192x768_S768x1_S192x1_1_0_0_1_n_n.lhsIdx_val_of_single rfl i q
theorem rhs1_0 (i : S192x1.Idx) (q : dot_S192x768_S768x1_S192x1_1_0_0_1_n_n.contr.Idx) :
    (dot_S192x768_S768x1_S192x1_1_0_0_1_n_n.rhsIdx i q 0).val = (q ⟨0, by decide⟩).val :=
  dot_S192x768_S768x1_S192x1_1_0_0_1_n_n.rhsIdx_val_of_single rfl i q
theorem rhs1_1 (i : S192x1.Idx) (q : dot_S192x768_S768x1_S192x1_1_0_0_1_n_n.contr.Idx) :
    (dot_S192x768_S768x1_S192x1_1_0_0_1_n_n.rhsIdx i q 1).val = (i 1).val := by
  unfold DotDims.rhsIdx
  rw [dif_neg (show ¬(1 : Fin S768x1.rank) ∈ dot_S192x768_S768x1_S192x1_1_0_0_1_n_n.rhsBatch by decide), dif_pos (show (1 : Fin S768x1.rank) ∈ dot_S192x768_S768x1_S192x1_1_0_0_1_n_n.rhsNonContracting by decide)]
  rfl

/-- The first layer's product at row `j`: `∑ k, w1 j k · s k`. -/
theorem matmul1_apply (a : FVec Ideal S192x768 .bf16) (b : FVec Ideal S768x1 .bf16) (j : Fin 192) (u : Fin 1) :
    matmul dot_S192x768_S768x1_S192x1_1_0_0_1_n_n none a b (constant (F := Ideal) S192x1 .f32 0x00000000#32) (ix2 j u)
      = ∑ k : Fin 768, a (ix2 j k) * b (ix2 k u) := by
  simp only [matmul]
  rw [Ideal.matmul_constant_zero_apply, ← Equiv.sum_comp (contrEquiv1 dot_S192x768_S768x1_S192x1_1_0_0_1_n_n 768 rfl rfl).symm]
  refine Finset.sum_congr rfl fun k _ => ?_
  have hk := contrEquiv1_symm_val dot_S192x768_S768x1_S192x1_1_0_0_1_n_n 768 rfl rfl k
  have el : dot_S192x768_S768x1_S192x1_1_0_0_1_n_n.lhsIdx (ix2 j u) ((contrEquiv1 dot_S192x768_S768x1_S192x1_1_0_0_1_n_n 768 rfl rfl).symm k) = ix2 j k := funext fun a => Fin.ext (by
    match a with
    | ⟨0, _⟩ => exact lhs1_0 _ _
    | ⟨1, _⟩ => exact (lhs1_1 _ _).trans hk)
  have er : dot_S192x768_S768x1_S192x1_1_0_0_1_n_n.rhsIdx (ix2 j u) ((contrEquiv1 dot_S192x768_S768x1_S192x1_1_0_0_1_n_n 768 rfl rfl).symm k) = ix2 k u := funext fun a => Fin.ext (by
    match a with
    | ⟨0, _⟩ => exact (rhs1_0 _ _).trans hk
    | ⟨1, _⟩ => exact rhs1_1 _ _)
  rw [el, er]

theorem lhs2_0 (i : S768x1.Idx) (q : dot_S768x192_S192x1_S768x1_1_0_0_1_n_n.contr.Idx) :
    (dot_S768x192_S192x1_S768x1_1_0_0_1_n_n.lhsIdx i q 0).val = (i 0).val := by
  unfold DotDims.lhsIdx
  rw [dif_neg (show ¬(0 : Fin S768x192.rank) ∈ dot_S768x192_S192x1_S768x1_1_0_0_1_n_n.lhsBatch by decide), dif_pos (show (0 : Fin S768x192.rank) ∈ dot_S768x192_S192x1_S768x1_1_0_0_1_n_n.lhsNonContracting by decide)]
  rfl
theorem lhs2_1 (i : S768x1.Idx) (q : dot_S768x192_S192x1_S768x1_1_0_0_1_n_n.contr.Idx) :
    (dot_S768x192_S192x1_S768x1_1_0_0_1_n_n.lhsIdx i q 1).val = (q ⟨0, by decide⟩).val :=
  dot_S768x192_S192x1_S768x1_1_0_0_1_n_n.lhsIdx_val_of_single rfl i q
theorem rhs2_0 (i : S768x1.Idx) (q : dot_S768x192_S192x1_S768x1_1_0_0_1_n_n.contr.Idx) :
    (dot_S768x192_S192x1_S768x1_1_0_0_1_n_n.rhsIdx i q 0).val = (q ⟨0, by decide⟩).val :=
  dot_S768x192_S192x1_S768x1_1_0_0_1_n_n.rhsIdx_val_of_single rfl i q
theorem rhs2_1 (i : S768x1.Idx) (q : dot_S768x192_S192x1_S768x1_1_0_0_1_n_n.contr.Idx) :
    (dot_S768x192_S192x1_S768x1_1_0_0_1_n_n.rhsIdx i q 1).val = (i 1).val := by
  unfold DotDims.rhsIdx
  rw [dif_neg (show ¬(1 : Fin S192x1.rank) ∈ dot_S768x192_S192x1_S768x1_1_0_0_1_n_n.rhsBatch by decide), dif_pos (show (1 : Fin S192x1.rank) ∈ dot_S768x192_S192x1_S768x1_1_0_0_1_n_n.rhsNonContracting by decide)]
  rfl

/-- The second layer's product at row `c`: `∑ j, w2 c j · h j`. -/
theorem matmul2_apply (a : FVec Ideal S768x192 .bf16) (b : FVec Ideal S192x1 .bf16) (j : Fin 768) (u : Fin 1) :
    matmul dot_S768x192_S192x1_S768x1_1_0_0_1_n_n none a b (constant (F := Ideal) S768x1 .f32 0x00000000#32) (ix2 j u)
      = ∑ k : Fin 192, a (ix2 j k) * b (ix2 k u) := by
  simp only [matmul]
  rw [Ideal.matmul_constant_zero_apply, ← Equiv.sum_comp (contrEquiv1 dot_S768x192_S192x1_S768x1_1_0_0_1_n_n 192 rfl rfl).symm]
  refine Finset.sum_congr rfl fun k _ => ?_
  have hk := contrEquiv1_symm_val dot_S768x192_S192x1_S768x1_1_0_0_1_n_n 192 rfl rfl k
  have el : dot_S768x192_S192x1_S768x1_1_0_0_1_n_n.lhsIdx (ix2 j u) ((contrEquiv1 dot_S768x192_S192x1_S768x1_1_0_0_1_n_n 192 rfl rfl).symm k) = ix2 j k := funext fun a => Fin.ext (by
    match a with
    | ⟨0, _⟩ => exact lhs2_0 _ _
    | ⟨1, _⟩ => exact (lhs2_1 _ _).trans hk)
  have er : dot_S768x192_S192x1_S768x1_1_0_0_1_n_n.rhsIdx (ix2 j u) ((contrEquiv1 dot_S768x192_S192x1_S768x1_1_0_0_1_n_n 192 rfl rfl).symm k) = ix2 k u := funext fun a => Fin.ext (by
    match a with
    | ⟨0, _⟩ => exact (rhs2_0 _ _).trans hk
    | ⟨1, _⟩ => exact rhs2_1 _ _)
  rw [el, er]

/-! ## The body's pieces over generic vectors -/

/-- The squeezed column at row `k`: the tile's row sum times `2⁻¹⁰`. -/
theorem squeeze_apply (v0 : FVec Ideal S1x768x1024 .f32) (hacc : (0x00000000#32 : BitVec 32) = 0x00000000#32) (k : Fin 768) (u : Fin 1) :
    mulf (shapeCast S768x1 (multiReduction .add [1] S768 (shapeCast S768x1024 v0 shapeCasts_S1x768x1024_S768x1024) 0x00000000#32
          reduces_S768x1024_S768 (.inl rfl) hacc) shapeCasts_S768_S768x1)
        (broadcast S768x1 (Scalar.ofBits (F := Ideal) .f32 0x3A800000#32)) (ix2 k u)
      = (∑ l : Fin 1024, v0 (ix3 (0 : Fin 1) k l)) * Ideal.ofBits .f32 0x3A800000#32 := by
  refine (mulf_apply _ _ (ix2 k u)).trans ?_
  refine congrArg₂ (· * ·) ?_ rfl
  refine (shapeCast_a_a1_apply _ shapeCasts_S768_S768x1 k u).trans ?_
  refine (laneSum_apply _ hacc k).trans ?_
  exact Finset.sum_congr rfl fun l _ => tile_apply v0 k l

/-- The first layer before its activation, at row `j`: the weights' row against the column, plus the bias. -/
theorem layer1_apply (v6 : FVec Ideal S192x768 .f32) (s : FVec Ideal S768x1 .f32) (v10 : FVec Ideal S192x1 .f32) (j : Fin 192) (u : Fin 1) :
    addf (matmul dot_S192x768_S768x1_S192x1_1_0_0_1_n_n none (truncf .bf16 v6 bitsLt_bf16_f32) (truncf .bf16 s bitsLt_bf16_f32)
          (constant (F := Ideal) S192x1 .f32 0x00000000#32))
        (shapeCast S192x1 v10 shapeCasts_S192x1_S192x1) (ix2 j u)
      = (∑ k : Fin 768, v6 (ix2 j k) * s (ix2 k u)) + v10 (ix2 j u) := by
  refine (addf_apply _ _ (ix2 j u)).trans ?_
  refine congrArg₂ (· + ·) (matmul1_apply _ _ j u) ?_
  rw [shapeCast_self]

/-- The second layer before its activation, at row `c`. -/
theorem layer2_apply (v15 : FVec Ideal S768x192 .f32) (h : FVec Ideal S192x1 .f32) (v19 : FVec Ideal S768x1 .f32) (c : Fin 768) (u : Fin 1) :
    addf (matmul dot_S768x192_S192x1_S768x1_1_0_0_1_n_n none (truncf .bf16 v15 bitsLt_bf16_f32) (truncf .bf16 h bitsLt_bf16_f32)
          (constant (F := Ideal) S768x1 .f32 0x00000000#32))
        (shapeCast S768x1 v19 shapeCasts_S768x1_S768x1) (ix2 c u)
      = (∑ j : Fin 192, v15 (ix2 c j) * h (ix2 j u)) + v19 (ix2 c u) := by
  refine (addf_apply _ _ (ix2 c u)).trans ?_
  refine congrArg₂ (· + ·) (matmul2_apply _ _ c u) ?_
  rw [shapeCast_self]

/-- `z · σ(z)`, entry by entry. -/
theorem swish_apply (z : FVec Ideal S192x1 .f32) (j : Fin 192) (u : Fin 1) :
    mulf z (logistic z) (ix2 j u) = swish (z (ix2 j u)) := rfl

/-! ## The stored tile at an index -/

/-- Entry `(r, l)` of the stored tile: the loaded tile's entry times the gate of row `r`, the gate computed from the
    tile's row sums, the two weight blocks and the two bias columns. -/
theorem pay_apply (v0 : FVec Ideal S1x768x1024 .f32) (v6 : FVec Ideal S192x768 .f32) (v10 : FVec Ideal S192x1 .f32)
    (v15 : FVec Ideal S768x192 .f32) (v19 : FVec Ideal S768x1 .f32) (u : Fin 1) (r : Fin 768) (l : Fin 1024) :
    k0_pay1 (F := Ideal) v0 v6 v10 v15 v19 (ix3 u r l)
      = v0 (ix3 (0 : Fin 1) r l) * gateOf (fun k => ∑ l' : Fin 1024, v0 (ix3 (0 : Fin 1) k l')) (fun j k => v6 (ix2 j k))
          (fun j => v10 (ix2 j (0 : Fin 1))) (fun c j => v15 (ix2 c j)) (fun c => v19 (ix2 c (0 : Fin 1))) r := by
  unfold k0_pay1
  dsimp only
  refine (untile_apply _ u r l).trans ?_
  refine (mulf_apply _ _ (ix2 r l)).trans ?_
  refine congrArg₂ (· * ·) (tile_apply v0 r l) ?_
  refine (broadcastTo_a1_ab_apply _ broadcasts_S768x1_S768x1024 r l).trans ?_
  show Ideal.logistic _ = Ideal.logistic _
  refine congrArg Ideal.logistic ?_
  refine (layer2_apply v15 _ v19 r 0).trans ?_
  refine congrArg (· + v19 (ix2 r (0 : Fin 1))) (Finset.sum_congr rfl fun j _ => congrArg (v15 (ix2 r j) * ·) ?_)
  refine (swish_apply _ j 0).trans (congrArg swish ?_)
  refine (layer1_apply v6 _ v10 j 0).trans ?_
  refine congrArg (· + v10 (ix2 j (0 : Fin 1))) (Finset.sum_congr rfl fun k _ => congrArg (v6 (ix2 j k) * ·) ?_)
  exact squeeze_apply v0 rfl k 0

end Cert.SePay

end
-- ==== Proof.SeKernel.lean ====
/-
  From the blocks to the arrays: what the kernel's result array holds after the run.

  The grid has one point per batch entry. At point `t` the feature-map window stages batch entry `t` of the flattened
  map `[32, 768, 1024]` and the output window writes back batch entry `t` of the result; the two weight matrices and
  the two bias columns are staged whole at every point. So what point `t` writes back is block `t` of ONE function of
  the arrays the region finds: each entry of the flattened map times the gate of its batch entry and channel. The 32
  blocks tile the result array, so after the run the array IS that function. Around the region, the host flattens the
  two spatial axes of `x` and turns each bias into a column beforehand, and un-flattens the result afterwards.
-/
import proofs.«125792_j79139067396494_1_alg».proof.Proof.Gen.KernelIdeal.Frame
import proofs.«125792_j79139067396494_1_alg».proof.Proof.SePay
import Idealize.ShloMosaic.Lib.Pipeline.Value
import Idealize.ShloMosaic.Lib.StableHlo.Run

set_option maxRecDepth 16384

noncomputable section

namespace Cert.SeKernel

open Cert.KernelIdeal Cert.KernelIdeal.Gen Idealize.ShloMosaic Idealize.ShloMosaic.TcCoe Idealize.SL.Sem
open Idealize.ShloMosaic.ValueIdx Cert.SeSpec Idealize.ShloMosaic.StableHlo
open Idealize.ShloMosaic.Pipeline (Dat)

variable (m : (ℓ : Loc nD τ sig) → Buf (Elt Ideal) ℓ) (ρ : Dev nD → PrngReg)

/-! ## The arrays as the region finds them, at their literal shapes -/

/-- The flattened feature map. -/
abbrev xarr (c : Dev nD) : FVec Ideal S32x768x1024 .f32 := V m c main_v0
/-- The first weight matrix. -/
abbrev w1arr (c : Dev nD) : FVec Ideal S192x768 .f32 := V m c main_arg1
/-- The first bias, as a column. -/
abbrev b1arr (c : Dev nD) : FVec Ideal S192x1 .f32 := V m c main_v1
/-- The second weight matrix. -/
abbrev w2arr (c : Dev nD) : FVec Ideal S768x192 .f32 := V m c main_arg3
/-- The second bias, as a column. -/
abbrev b2arr (c : Dev nD) : FVec Ideal S768x1 .f32 := V m c main_v2

/-- The batch entry a grid point works on: the point's own number. -/
def batchOf (t : Fin cfg0.N) : Fin 32 := ⟨t.val, by have := t.isLt; have hN : cfg0.N = 32 := N_0; omega⟩

/-- The gate of batch entry `b`, channel `r`, from the arrays the region finds. -/
def gate3 (c : Dev nD) (b : Fin 32) (r : Fin 768) : EReal :=
  gateOf (fun k => ∑ l : Fin 1024, xarr m c (ix3 b k l)) (fun j k => w1arr m c (ix2 j k)) (fun j => b1arr m c (ix2 j (0 : Fin 1)))
    (fun cc j => w2arr m c (ix2 cc j)) (fun cc => b2arr m c (ix2 cc (0 : Fin 1))) r

/-- The result array, flattened: every entry of the flattened map times its gate. -/
def out3 (c : Dev nD) : FVec Ideal S32x768x1024 .f32 := fun i => xarr m c i * gate3 m c (i 0) (i 1)

/-- The gate depends on its five arguments only through their values. -/
theorem gateOf_congr {pool pool' : Fin 768 → EReal} {w1 w1' : Fin 192 → Fin 768 → EReal} {b1 b1' : Fin 192 → EReal}
    {w2 w2' : Fin 768 → Fin 192 → EReal} {b2 b2' : Fin 768 → EReal} (h0 : pool = pool') (h1 : w1 = w1') (h2 : b1 = b1')
    (h3 : w2 = w2') (h4 : b2 = b2') (r : Fin 768) : gateOf pool w1 b1 w2 b2 r = gateOf pool' w1' b1' w2' b2' r := by
  subst h0 h1 h2 h3 h4; rfl

/-! ## The printed index maps, decided over the 32 grid points -/

theorem idx_x : ∀ t : Fin cfg0.N, win0_0.index t (0 : Fin 3) = t.val ∧ win0_0.index t (1 : Fin 3) = 0 ∧ win0_0.index t (2 : Fin 3) = 0 :=
  (by decide +kernel : ∀ t : Fin grid0.N, _)
theorem idx_o : ∀ t : Fin cfg0.N, win0_5.index t (0 : Fin 3) = t.val ∧ win0_5.index t (1 : Fin 3) = 0 ∧ win0_5.index t (2 : Fin 3) = 0 :=
  (by decide +kernel : ∀ t : Fin grid0.N, _)
theorem idx_w1 : ∀ t : Fin cfg0.N, win0_1.index t (0 : Fin 2) = 0 ∧ win0_1.index t (1 : Fin 2) = 0 :=
  (by decide +kernel : ∀ t : Fin grid0.N, _)
theorem idx_w2 : ∀ t : Fin cfg0.N, win0_2.index t (0 : Fin 2) = 0 ∧ win0_2.index t (1 : Fin 2) = 0 :=
  (by decide +kernel : ∀ t : Fin grid0.N, _)
theorem idx_w3 : ∀ t : Fin cfg0.N, win0_3.index t (0 : Fin 2) = 0 ∧ win0_3.index t (1 : Fin 2) = 0 :=
  (by decide +kernel : ∀ t : Fin grid0.N, _)
theorem idx_w4 : ∀ t : Fin cfg0.N, win0_4.index t (0 : Fin 2) = 0 ∧ win0_4.index t (1 : Fin 2) = 0 :=
  (by decide +kernel : ∀ t : Fin grid0.N, _)

/-! ## Each input window's block at a point, read at an index -/

/-- The feature-map window's block at point `t` is batch entry `t` of the flattened map. -/
theorem xblk_apply (c : Dev nD) (t : Fin cfg0.N) (u : Fin 1) (r : Fin 768) (l : Fin 1024) :
    (iblk m c 0 t : FVec Ideal S1x768x1024 .f32) (ix3 u r l) = xarr m c (ix3 (batchOf t) r l) := by
  obtain ⟨h0, h1, h2⟩ := idx_x t
  have hu : u.val = 0 := by omega
  unfold iblk
  rw [View.read_apply]
  show V m c main_v0 _ = V m c main_v0 _
  congr 1
  funext a
  apply Fin.ext
  match a with
  | ⟨0, _⟩ => show win0_0.index t 0 * 1 + 1 * u.val = t.val; rw [h0, hu]; omega
  | ⟨1, _⟩ => show win0_0.index t 1 * 768 + 1 * r.val = r.val; rw [h1]; omega
  | ⟨2, _⟩ => show win0_0.index t 2 * 1024 + 1 * l.val = l.val; rw [h2]; omega

/-- The first weight matrix is staged whole at every point. -/
theorem w1blk_apply (c : Dev nD) (t : Fin cfg0.N) (j : Fin 192) (k : Fin 768) :
    (iblk m c 1 t : FVec Ideal S192x768 .f32) (ix2 j k) = w1arr m c (ix2 j k) := by
  obtain ⟨h0, h1⟩ := idx_w1 t
  unfold iblk
  rw [View.read_apply]
  show V m c main_arg1 _ = V m c main_arg1 _
  congr 1
  funext a
  apply Fin.ext
  match a with
  | ⟨0, _⟩ => show win0_1.index t 0 * 192 + 1 * j.val = j.val; rw [h0]; omega
  | ⟨1, _⟩ => show win0_1.index t 1 * 768 + 1 * k.val = k.val; rw [h1]; omega

/-- The first bias column is staged whole at every point. -/
theorem b1blk_apply (c : Dev nD) (t : Fin cfg0.N) (j : Fin 192) (u : Fin 1) :
    (iblk m c 2 t : FVec Ideal S192x1 .f32) (ix2 j u) = b1arr m c (ix2 j u) := by
  obtain ⟨h0, h1⟩ := idx_w2 t
  unfold iblk
  rw [View.read_apply]
  show V m c main_v1 _ = V m c main_v1 _
  congr 1
  funext a
  apply Fin.ext
  match a with
  | ⟨0, _⟩ => show win0_2.index t 0 * 192 + 1 * j.val = j.val; rw [h0]; omega
  | ⟨1, _⟩ => show win0_2.index t 1 * 1 + 1 * u.val = u.val; rw [h1]; omega

/-- The second weight matrix is staged whole at every point. -/
theorem w2blk_apply (c : Dev nD) (t : Fin cfg0.N) (cc : Fin 768) (j : Fin 192) :
    (iblk m c 3 t : FVec Ideal S768x192 .f32) (ix2 cc j) = w2arr m c (ix2 cc j) := by
  obtain ⟨h0, h1⟩ := idx_w3 t
  unfold iblk
  rw [View.read_apply]
  show V m c main_arg3 _ = V m c main_arg3 _
  congr 1
  funext a
  apply Fin.ext
  match a with
  | ⟨0, _⟩ => show win0_3.index t 0 * 768 + 1 * cc.val = cc.val; rw [h0]; omega
  | ⟨1, _⟩ => show win0_3.index t 1 * 192 + 1 * j.val = j.val; rw [h1]; omega

/-- The second bias column is staged whole at every point. -/
theorem b2blk_apply (c : Dev nD) (t : Fin cfg0.N) (cc : Fin 768) (u : Fin 1) :
    (iblk m c 4 t : FVec Ideal S768x1 .f32) (ix2 cc u) = b2arr m c (ix2 cc u) := by
  obtain ⟨h0, h1⟩ := idx_w4 t
  unfold iblk
  rw [View.read_apply]
  show V m c main_v2 _ = V m c main_v2 _
  congr 1
  funext a
  apply Fin.ext
  match a with
  | ⟨0, _⟩ => show win0_4.index t 0 * 768 + 1 * cc.val = cc.val; rw [h0]; omega
  | ⟨1, _⟩ => show win0_4.index t 1 * 1 + 1 * u.val = u.val; rw [h1]; omega

/-! ## What a point writes back, the cover, the final array -/

theorem hz3 : (![0, 0, 0] : Fin 3 → Nat) = fun _ => 0 := funext fun a => by fin_cases a <;> rfl
theorem hz2 : (![0, 0] : Fin 2 → Nat) = fun _ => 0 := funext fun a => by fin_cases a <;> rfl

/-- Point `t` writes back block `t` of `out3`. -/
theorem flushed_eq (c : Dev nD) (t : Fin cfg0.N) :
    (dats m 0 c).flushed 5 t = ((cfg0.win 5).blk t).view.read (Elt Ideal) (out3 m c) := by
  show (cfg0.win 5).cut (grid0.coords t) ((dats m 0 c).after 5 t) = _
  rw [after0_5]
  unfold out0_5
  rw [View.canon_unit_zero hz3]
  simp only [View.ld_unit_zero (S := S1x768x1024) hz3, View.ld_unit_zero (S := S192x768) hz2, View.ld_unit_zero (S := S192x1) hz2,
    View.ld_unit_zero (S := S768x192) hz2, View.ld_unit_zero (S := S768x1) hz2]
  refine funext fun (y : S1x768x1024.Idx) => ?_
  obtain ⟨u, r, l, rfl⟩ : ∃ (u : Fin 1) (r : Fin 768) (l : Fin 1024), y = ix3 u r l := ⟨y 0, y 1, y 2, eq_ix3 y⟩
  have he : ((cfg0.win 5).blk t).view.emb (ix3 u r l) = ix3 (batchOf t) r l := by
    obtain ⟨h0, h1, h2⟩ := idx_o t
    have hu : u.val = 0 := by omega
    funext a
    apply Fin.ext
    match a with
    | ⟨0, _⟩ => show win0_5.index t 0 * 1 + 1 * u.val = t.val; rw [h0, hu]; omega
    | ⟨1, _⟩ => show win0_5.index t 1 * 768 + 1 * r.val = r.val; rw [h1]; omega
    | ⟨2, _⟩ => show win0_5.index t 2 * 1024 + 1 * l.val = l.val; rw [h2]; omega
  show k0_pay1 (F := Ideal) (iblk m c 0 t) (iblk m c 1 t) (iblk m c 2 t) (iblk m c 3 t) (iblk m c 4 t) (ix3 u r l)
    = out3 m c (((cfg0.win 5).blk t).view.emb (ix3 u r l))
  rw [he]
  refine (Cert.SePay.pay_apply (iblk m c 0 t) (iblk m c 1 t) (iblk m c 2 t) (iblk m c 3 t) (iblk m c 4 t) u r l).trans ?_
  show _ = xarr m c (ix3 (batchOf t) r l) * gate3 m c (batchOf t) r
  refine congrArg₂ (· * ·) (xblk_apply m c t 0 r l) ?_
  unfold gate3
  exact gateOf_congr (funext fun k => Finset.sum_congr rfl fun l' _ => xblk_apply m c t 0 k l')
    (funext fun j => funext fun k => w1blk_apply m c t j k) (funext fun j => b1blk_apply m c t j 0)
    (funext fun cc => funext fun j => w2blk_apply m c t cc j) (funext fun cc => b2blk_apply m c t cc 0) r

/-- An index of the result array is in point `t`'s block iff each coordinate is in the block's range on its axis. -/
theorem mem_blk (t : Fin cfg0.N) (i : S32x768x1024.Idx) :
    i ∈ ((cfg0.win 5).blk t).view.set ↔ ∀ a : Fin 3, win0_5.index t a * S1x768x1024.size a ≤ (i a).val
      ∧ (i a).val < win0_5.index t a * S1x768x1024.size a + S1x768x1024.size a := by
  show i ∈ ((View.whole main_v3).slice (win0_5.rect t)).set ↔ _
  rw [View.set_slice_whole, Rect.mem_set_unit]
  exact Iff.rfl

/-- Every index of the result array is in the block of the point numbered by its batch coordinate. -/
theorem cover (i : S32x768x1024.Idx) : ∃ t : Fin cfg0.N, (cfg0.win 5).flush t = true ∧ i ∈ ((cfg0.win 5).blk t).view.set := by
  have hN : cfg0.N = 32 := N_0
  have hi0 : (i 0).val < 32 := (i 0).isLt
  have hi1 : (i 1).val < 768 := (i 1).isLt
  have hi2 : (i 2).val < 1024 := (i 2).isLt
  obtain ⟨t, ht⟩ : ∃ t : Fin cfg0.N, t.val = (i 0).val := ⟨⟨(i 0).val, by omega⟩, rfl⟩
  obtain ⟨h0, h1, h2⟩ := idx_o t
  refine ⟨t, flush0_5 t, ?_⟩
  rw [mem_blk]
  intro a
  match a with
  | ⟨0, _⟩ => show win0_5.index t 0 * 1 ≤ (i 0).val ∧ (i 0).val < win0_5.index t 0 * 1 + 1; rw [h0]; omega
  | ⟨1, _⟩ => show win0_5.index t 1 * 768 ≤ (i 1).val ∧ (i 1).val < win0_5.index t 1 * 768 + 768; rw [h1]; omega
  | ⟨2, _⟩ => show win0_5.index t 2 * 1024 ≤ (i 2).val ∧ (i 2).val < win0_5.index t 2 * 1024 + 1024; rw [h2]; omega

/-- After the run the result array of the region is `out3`. -/
theorem final (c : Dev nD) : (dats m 0 c).arrAt 5 cfg0.N = out3 m c :=
  (dats m 0 c).arrAt_eq_of_cover 5 (out3 m c) (fun t _ => flushed_eq m c t) (cover)

end Cert.SeKernel

end
-- ==== Proof.SeBridge.lean ====
/-
  The kernel's run, read: its result array ends at the specification's scaled feature map of the five arguments.

  Before the region the host flattens the two spatial axes of `x` (position `(p, q)` goes to lane `32 p + q`) and views
  each bias as a column; after it the host un-flattens the region's result. Read through these casts, the sum over the
  1024 lanes of a row is the sum over the 32 × 32 spatial positions, the bias columns are the biases, and the
  un-flattened result at `(b, c, p, q)` is the flattened one at `(b, c, 32 p + q)`: `x` there times the gate of `(b, c)`.
-/
import proofs.«125792_j79139067396494_1_alg».proof.Proof.SeKernel

set_option maxRecDepth 16384

noncomputable section

namespace Cert.SeBridge

open Cert.KernelIdeal Cert.KernelIdeal.Gen Idealize.ShloMosaic Idealize.ShloMosaic.TcCoe Idealize.SL.Sem
open Idealize.ShloMosaic.ValueIdx Cert.SeSpec Cert.SeKernel Cert.LibKeepdims Idealize.ShloMosaic.StableHlo
open Idealize.ShloMosaic.Pipeline (Dat)

variable (m : (ℓ : Loc nD τ sig) → Buf (Elt Ideal) ℓ) (ρ : Dev nD → PrngReg)

/-! ## The host operations before the region -/

/-- The region finds `x` with its two spatial axes flattened. -/
theorem xarr_eq (c : Dev nD) :
    xarr m c = shapeCast S32x768x1024 (m ((c.tc : Thread nD τ).loc main_arg0)) shapeCasts_S32x768x32x32_S32x768x1024 := by
  show StableHlo.after hostOps0 (fun b => m (c, b)) (Proc.devRef .tc main_v0) = _
  after_results
  rfl

/-- The first bias as a column. -/
theorem b1arr_eq (c : Dev nD) : b1arr m c = shapeCast S192x1 (m ((c.tc : Thread nD τ).loc main_arg2)) shapeCasts_S192_S192x1 := by
  show StableHlo.after hostOps0 (fun b => m (c, b)) (Proc.devRef .tc main_v1) = _
  after_results
  rfl

/-- The second bias as a column. -/
theorem b2arr_eq (c : Dev nD) : b2arr m c = shapeCast S768x1 (m ((c.tc : Thread nD τ).loc main_arg4)) shapeCasts_S768_S768x1 := by
  show StableHlo.after hostOps0 (fun b => m (c, b)) (Proc.devRef .tc main_v2) = _
  after_results
  rfl

/-- Lane `32 p + q` of row `(b, k)` of the flattened map is `x` at `(b, k, p, q)`. -/
theorem xarr_apply (c : Dev nD) (b : Fin 32) (k : Fin 768) (p q : Fin 32) :
    xarr m c (ix3 b k (⟨p.val * 32 + q.val, by have := p.isLt; have := q.isLt; omega⟩ : Fin 1024))
      = ((m ((c.tc : Thread nD τ).loc main_arg0)) : S32x768x32x32.Idx → EReal) (ix4 b k p q) := by
  rw [xarr_eq]
  exact shapeCast_apply _ shapeCasts_S32x768x32x32_S32x768x1024 _ (ix4 b k p q) (by
    rw [Shape.rowMajor_val_four, Shape.rowMajor_val_three]
    show ((b.val * 768 + k.val) * 32 + p.val) * 32 + q.val = (b.val * 768 + k.val) * 1024 + (p.val * 32 + q.val)
    omega)

/-- The row sums of the flattened map are the pooled sums of `x`. -/
theorem pool_eq (c : Dev nD) (b : Fin 32) (k : Fin 768) :
    ∑ l : Fin 1024, xarr m c (ix3 b k l) = pooled (m ((c.tc : Thread nD τ).loc main_arg0)) b k :=
  (sum_lanes fun l => xarr m c (ix3 b k l)).trans (Finset.sum_congr rfl fun pq _ => xarr_apply m c b k pq.1 pq.2)

/-- The gate from the arrays the region finds is the gate from the arguments. -/
theorem gate3_eq (c : Dev nD) (b : Fin 32) (r : Fin 768) :
    gate3 m c b r = gateOf (pooled (m ((c.tc : Thread nD τ).loc main_arg0)) b) (fun j k => ((m ((c.tc : Thread nD τ).loc main_arg1)) : S192x768.Idx → EReal) (ix2 j k))
      (fun j => ((m ((c.tc : Thread nD τ).loc main_arg2)) : S192.Idx → EReal) (ix1 j)) (fun cc j => ((m ((c.tc : Thread nD τ).loc main_arg3)) : S768x192.Idx → EReal) (ix2 cc j))
      (fun cc => ((m ((c.tc : Thread nD τ).loc main_arg4)) : S768.Idx → EReal) (ix1 cc)) r := by
  unfold gate3
  refine gateOf_congr (funext fun k => pool_eq m c b k)
    (funext fun j => funext fun k => congrFun (V_main_arg1 m c) (ix2 j k)) (funext fun j => ?_)
    (funext fun cc => funext fun j => congrFun (V_main_arg3 m c) (ix2 cc j)) (funext fun cc => ?_) r
  · rw [b1arr_eq]; exact shapeCast_a_a1_apply _ shapeCasts_S192_S192x1 j 0
  · rw [b2arr_eq]; exact shapeCast_a_a1_apply _ shapeCasts_S768_S768x1 cc 0

/-! ## The host operation after the region -/

/-- The un-flattened result is the specification's scaled feature map of the arguments. -/
theorem out4_eq (c : Dev nD) :
    shapeCast S32x768x32x32 (out3 m c) shapeCasts_S32x768x1024_S32x768x32x32
      = scaled (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  funext i
  obtain ⟨b, k, p, q, rfl⟩ : ∃ (b : Fin 32) (k : Fin 768) (p q : Fin 32), i = ix4 b k p q := ⟨i 0, i 1, i 2, i 3, eq_ix4 i⟩
  refine (shapeCast_apply (out3 m c) shapeCasts_S32x768x1024_S32x768x32x32 (ix4 b k p q)
    (ix3 b k (⟨p.val * 32 + q.val, by have := p.isLt; have := q.isLt; omega⟩ : Fin 1024)) ?_).trans ?_
  · rw [Shape.rowMajor_val_four, Shape.rowMajor_val_three]
    show (b.val * 768 + k.val) * 1024 + (p.val * 32 + q.val) = ((b.val * 768 + k.val) * 32 + p.val) * 32 + q.val
    omega
  · exact congrArg₂ (· * ·) (xarr_apply m c b k p q) (gate3_eq m c b k)

/-- What the lines after the region leave in the result buffer: the region's result array, un-flattened. -/
theorem tail_eq (c : Dev nD) :
    Pipeline.afterTail₀ cfgs (dats m) 0 (V0 m) [hostOps1] c main_v4
      = shapeCast S32x768x32x32 (out3 m c) shapeCasts_S32x768x1024_S32x768x32x32 := by
  unfold Pipeline.afterTail₀
  show StableHlo.after hostOps1 _ (Proc.devRef .tc main_v4) = _
  after_results
  have hw := (Pipeline.withArrays_arr spec0 launch0.win.arr_inj c (V0 m c) (fun w => (dats m 0 c).arrAt w cfg0.N) 5).trans (final m c)
  funext i
  exact congrFun (congrArg (fun z => shapeCast S32x768x32x32 z shapeCasts_S32x768x1024_S32x768x32x32) hw) i

/-! ## The run -/

/-- Every weakly fair execution of the kernel program terminates with its result at the scaled feature map of the
    arguments, the arguments unchanged. -/
theorem run : θ_run defs (onTc (τ := τ) (main (F := Ideal))) ⟨m, fun _ => 0, ρ⟩ fun r => ∀ c : Dev nD,
      r.2.mem ((c.tc : Thread nD τ).loc main_v4) = scaled (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun _ h c =>
    ⟨((h c).2 main_v4 (Pipeline.mem_restRefs_of main_v4 (by decide) (by decide))).trans ((tail_eq m c).trans (out4_eq m c)),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c))),
      ((h c).2 main_arg2 (Pipeline.mem_restRefs_of main_arg2 (by decide) (by decide))).trans (W_main_arg2 m (dats m) c),
      ((h c).1 3).trans (((dats m 0 c).arrAt_in 3 rfl _).trans ((A_eq m c 3).trans (V_main_arg3 m c))),
      ((h c).2 main_arg4 (Pipeline.mem_restRefs_of main_arg4 (by decide) (by decide))).trans (W_main_arg4 m (dats m) c)⟩)
    (run_main m ρ)

end Cert.SeBridge

end
-- ==== Proof.lean ====
/-
  The certificate of a squeeze-and-excitation block over a feature map `x : [32, 768, 32, 32]`.

  Both programs compute, for every batch entry `b` and channel `c`, the mean of the 32 × 32 spatial entries of `x`,
  pass the 768 means of the batch entry through a two-layer perceptron — `[192, 768]` weights and a bias, the
  activation `z ↦ z · σ(z)`, then `[768, 192]` weights and a bias, then `σ` — and multiply every spatial entry of
  `(b, c)` by the resulting gate.

  The kernel does this one batch entry per grid point on the flattened `[768, 1024]` tile: a lane sum kept as a
  column and scaled by `2⁻¹⁰`, two column-vector matrix products on bf16 copies of the operands, the logistic
  operation. The reference divides the spatial sum by `1024`, multiplies the `[32, 768]` means into the transposed
  weights, and spells each sigmoid as `1 / (1 + e⁻ᶻ)`.

  On the extended reals the two are one function (Proof/SeSpec.lean, `scaled`), and no input needs to be finite
  for it: a change of float format is the identity; the quotient by `1024` is the product with the exact power of
  two `2⁻¹⁰`; a sum over 1024 lanes is the sum over the 32 × 32 positions they flatten, addition being commutative and
  associative; each term `s · wᵀ` of the reference's products is the kernel's `w · s` by commutativity of the product;
  and `1 / (1 + e⁻ᶻ)` is the logistic function by definition. The reference's side is Proof/SeRef.lean, the kernel
  body's stored tile Proof/SePay.lean, the blocks assembled into the result array Proof/SeKernel.lean, and the host
  reshapes around the region with the kernel's run Proof/SeBridge.lean.

  The kernel's two frames are the generated ones, the reference's frame is its generated run with the result
  dropped, and the idealization rewrote nothing, so `preserves` is trivial.
-/
import proofs.«125792_j79139067396494_1_alg».proof.Defs
import proofs.«125792_j79139067396494_1_alg».proof.Proof.Gen.Kernel
import proofs.«125792_j79139067396494_1_alg».proof.Proof.Gen.Kernel.Skeleton
import proofs.«125792_j79139067396494_1_alg».proof.Proof.Gen.Kernel.Launch
import proofs.«125792_j79139067396494_1_alg».proof.Proof.Gen.Kernel.Points
import proofs.«125792_j79139067396494_1_alg».proof.Proof.Gen.Kernel.Frame
import proofs.«125792_j79139067396494_1_alg».proof.Proof.Gen.KernelIdeal
import proofs.«125792_j79139067396494_1_alg».proof.Proof.Gen.KernelIdeal.Skeleton
import proofs.«125792_j79139067396494_1_alg».proof.Proof.Gen.KernelIdeal.Launch
import proofs.«125792_j79139067396494_1_alg».proof.Proof.Gen.KernelIdeal.Points
import proofs.«125792_j79139067396494_1_alg».proof.Proof.Gen.KernelIdeal.Frame
import proofs.«125792_j79139067396494_1_alg».proof.Proof.Gen.ReferenceIdeal
import proofs.«125792_j79139067396494_1_alg».proof.Proof.Gen.Pre_finite_inputs
import proofs.«125792_j79139067396494_1_alg».proof.Proof.Gen.ReferenceIdeal.Run
import proofs.«125792_j79139067396494_1_alg».proof.Proof.Gen.ReferenceIdeal.Read
import proofs.«125792_j79139067396494_1_alg».proof.Proof.SeRef
import proofs.«125792_j79139067396494_1_alg».proof.Proof.SeBridge
import Idealize.ShloMosaic.Adequacy
import Idealize.ShloMosaic.Init

noncomputable section

namespace Cert.Proof

open Idealize.ShloMosaic Idealize.SL.Sem

/-- The word-level kernel program runs and leaves its arguments unchanged: the generated frame. -/
theorem frame_kernel : Cert.frame_Kernel := fun m ρ _ => Cert.Kernel.Gen.frame m ρ

/-- So does the kernel program read on the extended reals. -/
theorem frame_kernelIdeal : Cert.frame_KernelIdeal := fun m ρ _ => Cert.KernelIdeal.Gen.frame m ρ

/-- The reference's frame is its run with the result forgotten. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories that agree on the five arguments, both programs end with the scaled feature map of those
    arguments: the kernel by its run read through the blocks and the host reshapes, the reference by its run read stage
    by stage. -/
theorem algebraic : Cert.algebraic_KernelIdeal_ReferenceIdeal := by
  intro m ρ m' ρ' _ hagree
  refine ⟨_, Cert.SeBridge.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v28_eq, Cert.SeRef.result_eq, (hagree c).1, (hagree c).2.1, (hagree c).2.2.1,
    (hagree c).2.2.2.1, (hagree c).2.2.2.2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
